-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x4096 : Shape := ⟨2, ![8192, 4096]⟩
abbrev S64x8192 : Shape := ⟨2, ![64, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S4096x8192 .f32) (main_arg1 : IVec S8192x4096 32) (main_arg2 : FVec F S64x8192 .f32) (main_arg3 : FVec F S64x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S64x8192 .f32 := Host.absf main_arg3
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  main_v13
-- ==== Kernel.lean ====
abbrev S4096x8192 : Shape := ⟨2, ![4096, 8192]⟩
abbrev S8192x4096 : Shape := ⟨2, ![8192, 4096]⟩
abbrev S64x8192 : Shape := ⟨2, ![64, 8192]⟩
abbrev S1024x1024 : Shape := ⟨2, ![1024, 1024]⟩
abbrev S512x512 : Shape := ⟨2, ![512, 512]⟩
abbrev S8x512 : Shape := ⟨2, ![8, 512]⟩
abbrev S1024x512 : Shape := ⟨2, ![1024, 512]⟩
abbrev S512x512x1 : Shape := ⟨3, ![512, 512, 1]⟩
abbrev S512x512x2 : Shape := ⟨3, ![512, 512, 2]⟩
abbrev S512x1024 : Shape := ⟨2, ![512, 1024]⟩
abbrev S512x8x128 : Shape := ⟨3, ![512, 8, 128]⟩
abbrev S512x8 : Shape := ⟨2, ![512, 8]⟩
abbrev S512x8x1 : Shape := ⟨3, ![512, 8, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S8192x4096, .i32⟩
  | .hbm, ⟨2, _⟩ => ⟨S64x8192, .f32⟩
  | .hbm, ⟨3, _⟩ => ⟨S64x8192, .f32⟩
  | .hbm, ⟨4, _⟩ => ⟨S4096x8192, .f32⟩
  | .local _ .vmem, ⟨0, _⟩ => ⟨S1024x1024, .f32⟩
  | .local _ .vmem, ⟨1, _⟩ => ⟨S1024x1024, .f32⟩
  | .local _ .vmem, ⟨2, _⟩ => ⟨S512x512, .i32⟩
  | .local _ .vmem, ⟨3, _⟩ => ⟨S512x512, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v37 : BitVec 1 := Scalar.cmpi .eq arg2 c7_i32
  let v38 : BitVec 32 := Scalar.extui v37
  let c0_i32_13 : BitVec 32 := 0#32
  let v39 : BitVec 1 := Scalar.cmpi .ne v38 c0_i32_13
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512x1 : S512x512.ShapeCasts S512x512x1
  concatenates_S512x512x1_S512x512x1_S512x512x2_d2 : Shape.Concatenates [S512x512x1, S512x512x1] S512x512x2 2
  shapeCasts_S512x512x2_S512x1024 : S512x512x2.ShapeCasts S512x1024
  shapeCasts_S512x1024_S512x8x128 : S512x1024.ShapeCasts S512x8x128
  inb_S8x512_S8x512_0_0 : ∀ a, (![0, 0] : Fin 2 → Nat) a + S8x512.size a ≤ S8x512.size a
  h_S8x512 : 0 < S8x512.numel
  transposes_S8x512_p1_0_S512x8 : S8x512.Transposes [1, 0] S512x8
  shapeCasts_S512x8_S512x8x1 : S512x8.ShapeCasts S512x8x1
  broadcasts_S512x8x1_S512x8x128 : S512x8x1.Broadcasts S512x8x128
  shapeCasts_S512x8x128_S512x1024 : S512x8x128.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .f32 = 32 ∨ (Rect.block (s := S4096x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x4096.size a
  hwx0_1 : ∀ i : grid0.Coords, EltTy.bits .i32 = 32 ∨ (Rect.block (s := S8192x4096) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S64x8192.size a
  hwx0_2 : ∀ i : grid0.Coords, EltTy.bits .f32 = 32 ∨ (Rect.block (s := S64x8192) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x8192.size a
  hwx0_3 : ∀ i : grid0.Coords, EltTy.bits .f32 = 32 ∨ (Rect.block (s := S64x8192) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x8192.size a
  hwx0_4 : ∀ i : grid0.Coords, EltTy.bits .f32 = 32 ∨ (Rect.block (s := S4096x8192) S1024x512.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x4096 : Shape := ⟨2, ![8192, 4096]⟩
abbrev S64x8192 : Shape := ⟨2, ![64, 8192]⟩
abbrev S_ : Shape := ⟨0, ![]⟩
abbrev S8192x4096x1 : Shape := ⟨3, ![8192, 4096, 1]⟩
abbrev S8192x4096x2 : Shape := ⟨3, ![8192, 4096, 2]⟩
abbrev S8192x8192 : Shape := ⟨2, ![8192, 8192]⟩
abbrev S8192x64x128 : Shape := ⟨3, ![8192, 64, 128]⟩
abbrev S8192x64 : Shape := ⟨2, ![8192, 64]⟩
abbrev S8192x64x1 : Shape := ⟨3, ![8192, 64, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .i32⟩
  | .hbm, ⟨2, _⟩ => ⟨S64x8192, .f32⟩
  | .hbm, ⟨3, _⟩ => ⟨S64x8192, .f32⟩
  | .hbm, ⟨4, _⟩ => ⟨S_, .i32⟩
  | .hbm, ⟨5, _⟩ => ⟨S8192x4096, .i32⟩
  | .hbm, ⟨6, _⟩ => ⟨S8192x4096, .i32⟩
  | .hbm, ⟨7, _⟩ => ⟨S_, .i32⟩
  | .hbm, ⟨8, _⟩ => ⟨S8192x4096, .i32⟩
  | .hbm, ⟨9, _⟩ => ⟨S8192x4096, .i32⟩
  | .hbm, ⟨10, _⟩ => ⟨S_, .i32⟩
  | .hbm, ⟨11, _⟩ => ⟨S8192x4096, .i32⟩
  | .hbm, ⟨12, _⟩ => ⟨S8192x4096, .i32⟩
  | .hbm, ⟨13, _⟩ => ⟨S8192x4096x1, .i32⟩
  | .hbm, ⟨14, _⟩ => ⟨S8192x4096x1, .i32⟩
  | .hbm, ⟨15, _⟩ => ⟨S8192x4096x2, .i32⟩
  | .hbm, ⟨16, _⟩ => ⟨S8192x8192, .i32⟩
  | .hbm, ⟨17, _⟩ => ⟨S8192x8192, .f32⟩
  | .hbm, ⟨18, _⟩ => ⟨S8192x64x128, .f32⟩
  | .hbm, ⟨19, _⟩ => ⟨S8192x64, .f32⟩
  | .hbm, ⟨20, _⟩ => ⟨S8192x64x1, .f32⟩
  | .hbm, ⟨21, _⟩ => ⟨S8192x64, .f32⟩
  | .hbm, ⟨22, _⟩ => ⟨S8192x64x1, .f32⟩
  | .hbm, ⟨23, _⟩ => ⟨S8192x64x128, .f32⟩
  | .hbm, ⟨24, _⟩ => ⟨S8192x64x128, .f32⟩
  | .hbm, ⟨25, _⟩ => ⟨S8192x64x128, .f32⟩
  | .hbm, ⟨26, _⟩ => ⟨S8192x64x128, .f32⟩
  | .hbm, ⟨27, _⟩ => ⟨S8192x8192, .f32⟩
  | .hbm, ⟨28, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192 : S8192x4096x2.ShapeCasts S8192x8192
  shapeCasts_S8192x8192_S8192x64x128 : S8192x8192.ShapeCasts S8192x64x128
  transposes_S64x8192_S8192x64_1_0 : S64x8192.Transposes [1, 0] S8192x64
  bcast_S8192x64_S8192x64x1_0_1 : S8192x64.BroadcastsInDim S8192x64x1 (![0, 1] : Fin 2 → Fin S8192x64x1.rank)
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192
  dot_S4096x8192_S8192x8192_S4096x8192_1_1_0_0_n_n_wf : DotDims.WF S4096x8192 S8192x8192 S4096x8192 [1] [1] [0] [0] [] []

variable [Facts₀]

def dot_S4096x8192_S8192x8192_S4096x8192_1_1_0_0_n_n : DotDims S4096x8192 S8192x8192 S4096x8192 where
  lhsContracting := [1]
  rhsContracting := [1]
  lhsNonContracting := [0]
  rhsNonContracting := [0]
  lhsBatch := []
  rhsBatch := []
  wf := dot_S4096x8192_S8192x8192_S4096x8192_1_1_0_0_n_n_wf

class Facts : Prop extends Facts₀ where

variable [Facts]
-- ==== Proof.StepIdeal.lean ====
/-
  What one grid point leaves behind, as a function of what it loaded.

  The body keeps a running block in a scratch buffer. At the first step of a run it stores the zero block and then
  adds the step's product to what it reads back; at every later step it adds the step's product to what the step
  before left; at the last step it also copies the running block to the output. In each case the buffer ends with one
  covering store, so what it holds is that store's value: the step function applied to the step's four input blocks
  and to the block carried in (the zero block at the first step).
-/
import proofs.«401464_j35150012350702_1_alg».proof.Proof.Gen.KernelIdeal.Frame
import Idealize.ShloMosaic.Lib.Pipeline.Value
import Idealize.ShloMosaic.Lib.Tactic

noncomputable section

namespace Cert.KernelIdeal.Step

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First step of a run: the zero block is stored, read back, and the step's product added to it. -/
theorem scratch_first (c : Dev nD) (i : grid0.Coords) (arg3 : Memref sig .tc .vmem S1024x1024 .f32) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i) (x0 : Vec F S1024x1024 .f32) (x1 : Vec F S512x512 .i32) (x2 : Vec F S8x512 .f32) (x3 : Vec F S8x512 .f32) :
    sout0_A_0 c i arg3 harg3 arg4 harg4 arg5 harg5 arg6 harg6 arg7 harg7 arg8 harg8 hc0 hc1 x0 x1 x2 x3 = k0_pay2 x1 x2 x3 x0 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread,
    View.ld_unit_zero (S := S1024x1024) hz, View.ld_unit_zero (S := S512x512) hz, View.ld_unit_zero (S := S8x512) hz,
    View.ld_unit_zero (S := S1024x512) hz]

/-- A middle step: the step's product added to the block the step before left. -/
theorem scratch_middle (c : Dev nD) (i : grid0.Coords) (arg3 : Memref sig .tc .vmem S1024x1024 .f32) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i) (x0 : Vec F S1024x1024 .f32) (x1 : Vec F S512x512 .i32) (x2 : Vec F S8x512 .f32) (x3 : Vec F S8x512 .f32) (xs0 : Vec F S1024x512 .f32) :
    sout0_B_0 c i arg3 harg3 arg4 harg4 arg5 harg5 arg6 harg6 arg7 harg7 arg8 harg8 hc0 hc1 x0 x1 x2 x3 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread,
    View.ld_unit_zero (S := S1024x1024) hz, View.ld_unit_zero (S := S512x512) hz, View.ld_unit_zero (S := S8x512) hz,
    View.ld_unit_zero (S := S1024x512) hz]

/-- The last step leaves the same in the scratch as a middle step would. -/
theorem scratch_last (c : Dev nD) (i : grid0.Coords) (arg3 : Memref sig .tc .vmem S1024x1024 .f32) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i) (x0 : Vec F S1024x1024 .f32) (x1 : Vec F S512x512 .i32) (x2 : Vec F S8x512 .f32) (x3 : Vec F S8x512 .f32) (xs0 : Vec F S1024x512 .f32) :
    sout0_C_0 c i arg3 harg3 arg4 harg4 arg5 harg5 arg6 harg6 arg7 harg7 arg8 harg8 hc0 hc1 x0 x1 x2 x3 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread,
    View.ld_unit_zero (S := S1024x1024) hz, View.ld_unit_zero (S := S512x512) hz, View.ld_unit_zero (S := S8x512) hz,
    View.ld_unit_zero (S := S1024x512) hz]

/-- … and copies it to the output block. -/
theorem out_last (c : Dev nD) (i : grid0.Coords) (arg3 : Memref sig .tc .vmem S1024x1024 .f32) (harg3 : arg3.IsWhole) (arg4 : Memref sig .tc .vmem S512x512 .i32) (harg4 : arg4.IsWhole) (arg5 : Memref sig .tc .vmem S8x512 .f32) (harg5 : arg5.IsWhole) (arg6 : Memref sig .tc .vmem S8x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i) (x0 : Vec F S1024x1024 .f32) (x1 : Vec F S512x512 .i32) (x2 : Vec F S8x512 .f32) (x3 : Vec F S8x512 .f32) (xs0 : Vec F S1024x512 .f32) :
    out0_C_4 c i arg3 harg3 arg4 harg4 arg5 harg5 arg6 harg6 arg7 harg7 arg8 harg8 hc0 hc1 x0 x1 x2 x3 xs0 = k0_pay2 x1 x2 x3 x0 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x512) _ hz]
  simp only [View.readAt_eq_ld, harg3.read_unread, harg4.read_unread, harg5.read_unread, harg6.read_unread, harg8.read_unread,
    View.ld_unit_zero (S := S1024x1024) hz, View.ld_unit_zero (S := S512x512) hz, View.ld_unit_zero (S := S8x512) hz,
    View.ld_unit_zero (S := S1024x512) hz]

end Cert.KernelIdeal.Step

end
-- ==== Proof.Fold.lean ====
/-
  The running block, step by step.

  The grid is walked in runs of eight consecutive steps (the third grid coordinate going 0 … 7 while the first two
  stay put). What the scratch holds after a step is the step function applied to the step's four input blocks and to
  the block carried in: the zero block at the first step of a run, what the step before left otherwise. At the last
  step of a run the output block is a copy of the scratch.
-/
import proofs.«401464_j35150012350702_1_alg».proof.Proof.Gen.KernelIdeal.Value
import proofs.«401464_j35150012350702_1_alg».proof.Proof.StepIdeal

noncomputable section

namespace Cert.KernelIdeal.Fold

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

/-- The four input blocks of a step, at their literal shapes: a 1024 × 1024 block of x, a 512 × 512 block of packed
    words, and 8 × 512 blocks of the scales and of the zeros. -/
abbrev xblk (c : Dev nD) (t : Fin cfg0.N) : Vec F S1024x1024 .f32 := iblk m c 0 t
abbrev qblk (c : Dev nD) (t : Fin cfg0.N) : Vec F S512x512 .i32 := iblk m c 1 t
abbrev sblk (c : Dev nD) (t : Fin cfg0.N) : Vec F S8x512 .f32 := iblk m c 2 t
abbrev zblk (c : Dev nD) (t : Fin cfg0.N) : Vec F S8x512 .f32 := iblk m c 3 t

/-- One step: the block carried in, plus the product of the step's x block with its dequantized weight block. -/
def stepAt (c : Dev nD) (n : ℕ) (hb : n < cfg0.N) (acc : Vec F S1024x512 .f32) : Vec F S1024x512 .f32 :=
  k0_pay2 (qblk m c ⟨n, hb⟩) (sblk m c ⟨n, hb⟩) (zblk m c ⟨n, hb⟩) (xblk m c ⟨n, hb⟩) acc

/-- At the first step of a run the scratch ends at the step applied to the zero block, whatever it held. -/
theorem scratch_first (c : Dev nD) (n : ℕ) (hb : n < cfg0.N) (h0 : n % 8 = 0) (acc : Vec F S1024x512 .f32) :
    scAt0_0 m c n hb acc = stepAt m c n hb (k0_pay1 (F := F)) := by
  have h1 : ¬n % 8 = 7 := by omega
  unfold scAt0_0
  rw [dif_pos h0, dif_neg h1, Step.scratch_first]
  rfl

/-- At every later step it ends at the step applied to what it held. -/
theorem scratch_later (c : Dev nD) (n : ℕ) (hb : n < cfg0.N) (h0 : ¬n % 8 = 0) (acc : Vec F S1024x512 .f32) :
    scAt0_0 m c n hb acc = stepAt m c n hb acc := by
  unfold scAt0_0
  by_cases h1 : n % 8 = 7
  · rw [dif_neg h0, dif_pos h1, Step.scratch_last]
    rfl
  · rw [dif_neg h0, dif_neg h1, Step.scratch_middle]
    rfl

/-- At the last step of a run the output block is the scratch. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Step.out_last, Step.scratch_last]

end Cert.KernelIdeal.Fold

end
-- ==== Proof.Dequant.lean ====
/-
  The mathematics of the 4-bit group-quantized product, with no program in sight.

  A packed word holds two 4-bit fields: column κ of the unpacked matrix is field κ mod 2 of packed column κ / 2
  (field 0 is the word masked with 15, field 1 the word shifted right by 4, then masked). Columns come in groups of
  128; the weight at (o, κ) is  field · scale(κ / 128, o) − zero(κ / 128, o),  the field read as a signed integer.
  The result at (r, o) is the sum over all 8192 columns κ of  x(r, κ) · weight(o, κ).
  The sum over 8192 columns is the sum over 8 chunks of 1024 consecutive columns each — addition of extended reals
  is commutative and associative, so no finiteness is needed for the regrouping.
-/
import Idealize.ShloMosaic.PureOps.Ideal
import Idealize.ShloMosaic.Lib.ValueIdx

noncomputable section

open scoped BigOperators

namespace Cert.Dequant

open Idealize.ShloMosaic Idealize.ShloMosaic.ValueIdx

/-- Field `b` of a packed word: the low four bits for `b = 0`, the next four otherwise. -/
def field (w : BitVec 32) (b : Nat) : BitVec 32 :=
  if b = 0 then IntOp.andi w 15#32 else IntOp.andi (IntOp.shrsi .vector w 4#32) 15#32

/-- On a shift by four the host's arithmetic shift is the vector unit's: the amount is below the width. -/
theorem shrsi_host_four (w : BitVec 32) : IntOp.shrsi .host w 4#32 = IntOp.shrsi .vector w 4#32 := by
  unfold IntOp.shrsi
  rw [if_pos (by decide), if_pos (by decide)]

/-- The weight at row `o` and column `κ`, from the packed words, the scales and the zeros, for any extents:
    `O` rows, `Kh` packed columns, `Gn` groups. -/
def weight {O Kh Gn : Nat} (qw : IVec ⟨2, ![O, Kh]⟩ 32) (s z : FVec Ideal ⟨2, ![Gn, O]⟩ .f32)
    (o : Fin O) (κ : Nat) (h2 : κ / 2 < Kh) (hg : κ / 128 < Gn) : EReal :=
  FloatOps.sitofp (F := Ideal) .f32 (field (qw (ix2 o ⟨κ / 2, h2⟩)) (κ % 2)) * s (ix2 ⟨κ / 128, hg⟩ o)
    - z (ix2 ⟨κ / 128, hg⟩ o)

/-- The weight does not depend on how the column was written. -/
theorem weight_congr {O Kh Gn : Nat} (qw : IVec ⟨2, ![O, Kh]⟩ 32) (s z : FVec Ideal ⟨2, ![Gn, O]⟩ .f32)
    (o : Fin O) (κ κ' : Nat) (h2 : κ / 2 < Kh) (hg : κ / 128 < Gn) (h2' : κ' / 2 < Kh) (hg' : κ' / 128 < Gn)
    (e : κ = κ') : weight qw s z o κ h2 hg = weight qw s z o κ' h2' hg' := by
  subst e; rfl

/-- The whole result: entry (r, o) is the sum over the 8192 columns of `x(r, κ) · weight(o, κ)`. -/
def result (x : FVec Ideal ⟨2, ![4096, 8192]⟩ .f32) (qw : IVec ⟨2, ![8192, 4096]⟩ 32)
    (s z : FVec Ideal ⟨2, ![64, 8192]⟩ .f32) : FVec Ideal ⟨2, ![4096, 8192]⟩ .f32 := fun i =>
  ∑ κ : Fin 8192, x (ix2 (i 0) κ) *
    weight qw s z (i 1) κ.val (by have := κ.isLt; omega) (by have := κ.isLt; omega)

/-- A sum over 8192 columns, chunk by chunk: eight chunks of 1024 consecutive columns. -/
theorem sum_chunks (f : Nat → EReal) :
    ∑ κ : Fin 8192, f κ.val = ∑ s ∈ Finset.range 8, ∑ k : Fin 1024, f (1024 * s + k.val) := by
  rw [Finset.sum_range]
  rw [← Fintype.sum_prod_type' (f := fun (s : Fin 8) (k : Fin 1024) => f (1024 * s.val + k.val))]
  rw [← Equiv.sum_comp (finProdFinEquiv (m := 8) (n := 1024))]
  refine Finset.sum_congr rfl fun p _ => ?_
  show f (p.2.val + 1024 * p.1.val) = f (1024 * p.1.val + p.2.val)
  rw [Nat.add_comm]

end Cert.Dequant

end
-- ==== Proof.LibDotTransposedRhs.lean ====
/-
  The product of a matrix with the transpose of another, read at an index.

  For the contraction pattern "rows × inner" by "columns × inner" (left axis 1 against right axis 1, no batch
  axis), the product into a zero accumulator, and the host's product of the same operands, are at output
  index (p, q) the sum over the inner coordinate k of l(p, k) · r(q, k). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibDotTransposedRhs

open Idealize.ShloMosaic Idealize.ShloMosaic.ValueIdx

variable {M K N : Nat}

/-- The pattern contracts exactly one axis. -/
theorem contr_rank : (DotDims.transposedRhs M K N).contr.rank = 1 := rfl

/-- That axis has the inner extent. -/
theorem contr_size : (DotDims.transposedRhs M K N).contr.size ⟨0, by rw [contr_rank]; exact Nat.one_pos⟩ = K := rfl

/-- The bijection of the contraction's index type with the inner coordinate. -/
abbrev inner : (DotDims.transposedRhs M K N).contr.Idx ≃ Fin K :=
  contrEquiv1 (DotDims.transposedRhs M K N) K contr_rank contr_size

/-- At output index j and inner coordinate k the left operand is read at (j₀, k). -/
theorem lhsIdx_inner (j : (⟨2, ![M, N]⟩ : Shape).Idx) (k : Fin K) :
    (DotDims.transposedRhs M K N).lhsIdx j (inner.symm k) = ix2 (j 0) k := by
  funext a
  match a with
  | ⟨0, _⟩ => rfl
  | ⟨1, _⟩ =>
    apply Fin.ext
    exact ((DotDims.transposedRhs M K N).lhsIdx_val_of_single (cl := 1) rfl j (inner.symm k)).trans
      (contrEquiv1_symm_val (DotDims.transposedRhs M K N) K contr_rank contr_size k)

/-- At output index j and inner coordinate k the right operand is read at (j₁, k): its rows are the output's columns. -/
theorem rhsIdx_inner (j : (⟨2, ![M, N]⟩ : Shape).Idx) (k : Fin K) :
    (DotDims.transposedRhs M K N).rhsIdx j (inner.symm k) = ix2 (j 1) k := by
  funext a
  match a with
  | ⟨0, _⟩ => rfl
  | ⟨1, _⟩ =>
    apply Fin.ext
    exact ((DotDims.transposedRhs M K N).rhsIdx_val_of_single (cr := 1) rfl j (inner.symm k)).trans
      (contrEquiv1_symm_val (DotDims.transposedRhs M K N) K contr_rank contr_size k)

/-- The contraction's sum, over the inner coordinate. -/
theorem sum_inner (l : (⟨2, ![M, K]⟩ : Shape).Idx → EReal) (r : (⟨2, ![N, K]⟩ : Shape).Idx → EReal)
    (j : (⟨2, ![M, N]⟩ : Shape).Idx) :
    ∑ k : (DotDims.transposedRhs M K N).contr.Idx,
        l ((DotDims.transposedRhs M K N).lhsIdx j k) * r ((DotDims.transposedRhs M K N).rhsIdx j k)
      = ∑ k : Fin K, l (ix2 (j 0) k) * r (ix2 (j 1) k) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![N, K]⟩ φ₂) (j : (⟨2, ![M, N]⟩ : Shape).Idx) :
    FloatOps.matmul (DotDims.transposedRhs M K N) prec l r (constant ⟨2, ![M, N]⟩ .f32 0x00000000#32) j
      = ∑ k : Fin K, l (ix2 (j 0) k) * r (ix2 (j 1) k) :=
  (Ideal.matmul_constant_zero_apply (DotDims.transposedRhs M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![N, K]⟩ φ₂) (j : (⟨2, ![M, N]⟩ : Shape).Idx) :
    FloatOps.dotGeneral (DotDims.transposedRhs M K N) prec sched l r j
      = ∑ k : Fin K, l (ix2 (j 0) k) * r (ix2 (j 1) k) :=
  (Ideal.dotGeneral_apply (DotDims.transposedRhs M K N) prec sched l r j).trans (sum_inner l r j)

end Cert.LibDotTransposedRhs

end
-- ==== Proof.StepValue.lean ====
/-
  The two values the kernel body stores, read at an index.

  The first stored value is the zero block. The second is the running block plus the product of a block of x
  with the transpose of a block of dequantized weights. The weight block is built by layout operations from the
  packed words, the scales and the zeros: the two 4-bit fields of every packed word are converted to floats and
  interleaved (column κ is field κ mod 2 of packed column κ / 2), the columns are grouped by 128, each group is
  multiplied by its scale and has its zero subtracted (the scale and the zero of group κ / 128 and of the row),
  and the groups are laid side by side again. Each layout operation is read at an index as its operand at an
  index named by coordinates; the coordinate arithmetic is linear once the quotient and remainder are named.
  At the extended reals the narrowing of the format is the identity and the product into a zero accumulator is
  the sum over the inner coordinate of the products of the entries.
-/
import proofs.«401464_j35150012350702_1_alg».proof.Proof.Gen.KernelIdeal.Skeleton
import proofs.«401464_j35150012350702_1_alg».proof.Proof.Dequant
import proofs.«401464_j35150012350702_1_alg».proof.Proof.LibDotTransposedRhs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.StepValue

open Cert.KernelIdeal Cert.KernelIdeal.Gen Idealize.ShloMosaic Idealize.ShloMosaic.ValueIdx

/-! ## The zero block -/

/-- The first stored value is zero everywhere: a broadcast of the zero word under an identity shape cast. -/
theorem zero_apply (j : S1024x512.Idx) : k0_pay1 (F := Ideal) j = 0 := by
  show shapeCast S1024x512 (broadcast S1024x512 (Scalar.ofBits (F := Ideal) .f32 0x00000000#32))
    shapeCasts_S1024x512_S1024x512 j = 0
  rw [shapeCast_self]
  exact Ideal.ofBits_zero_f32

/-! ## The pieces of the weight block -/

/-- The two 4-bit fields of every packed word, as floats, interleaved: a 512 × 1024 matrix. -/
def unpacked (v3 : IVec S512x512 32) : FVec Ideal S512x1024 .f32 :=
  shapeCast S512x1024
    (concatenate S512x512x2 2
      [⟨S512x512x1, shapeCast S512x512x1 (sitofp .f32 (andi v3 (broadcast S512x512 15#32)))
          shapeCasts_S512x512_S512x512x1⟩,
       ⟨S512x512x1, shapeCast S512x512x1
          (sitofp .f32 (andi (shrsi v3 (broadcast S512x512 4#32)) (broadcast S512x512 15#32)))
          shapeCasts_S512x512_S512x512x1⟩]
      concatenates_S512x512x1_S512x512x1_S512x512x2_d2)
    shapeCasts_S512x512x2_S512x1024

/-- One value per (group, row), transposed and spread over the 128 columns of its group. -/
def spread (v : FVec Ideal S8x512 .f32) : FVec Ideal S512x8x128 .f32 :=
  broadcastTo S512x8x128
    (shapeCast S512x8x1 (transpose S512x8 [1, 0] v transposes_S8x512_p1_0_S512x8) shapeCasts_S512x8_S512x8x1)
    broadcasts_S512x8x1_S512x8x128

/-- The dequantized weight block: field times scale minus zero, group by group. -/
def wblock (v3 : IVec S512x512 32) (v17 v18 : FVec Ideal S8x512 .f32) : FVec Ideal S512x1024 .f32 :=
  shapeCast S512x1024
    (subf (mulf (shapeCast S512x8x128 (unpacked v3) shapeCasts_S512x1024_S512x8x128) (spread v17)) (spread v18))
    shapeCasts_S512x8x128_S512x1024

/-- The spread value at (row q, group g, lane l) is the operand at (g, q). -/
theorem spread_apply (v : FVec Ideal S8x512 .f32) (q : Fin 512) (g : Fin 8) (l : Fin 128) :
    spread v (ix3 q g l) = v (ix2 g q) := by
  unfold spread
  -- the broadcast along the unit axis: (q, g, l) reads (q, g, 0)
  refine (broadcastTo_apply _ _ (ix3 q g l) (ix3 q g ⟨0, Nat.one_pos⟩)
    (fun a => match a with | ⟨0, _⟩ => rfl | ⟨1, _⟩ => rfl | ⟨2, _⟩ => rfl)).trans ?_
  -- the cast that added the unit axis: (q, g, 0) reads (q, g)
  refine (shapeCast_apply _ _ _ (ix2 q g)
    (by rw [Shape.rowMajor_val_two, Shape.rowMajor_val_three]
        show q.val * 8 + g.val = (q.val * 8 + g.val) * 1 + 0
        omega)).trans ?_
  -- the transpose: (q, g) reads (g, q)
  exact transpose_ix2_apply v _ q g

/-- The interleaved matrix at (q, κ) is field κ mod 2 of the packed word at (q, κ / 2), as a float. -/
theorem unpacked_apply (v3 : IVec S512x512 32) (q : Fin 512) (k : Fin 1024) :
    unpacked v3 (ix2 q k)
      = FloatOps.sitofp (F := Ideal) .f32
          (Cert.Dequant.field (v3 (ix2 q ⟨k.val / 2, by have := k.isLt; omega⟩)) (k.val % 2)) := by
  have hk := k.isLt
  have hh : k.val / 2 < 512 := by omega
  unfold unpacked
  -- the cast that merged the last two axes: (q, κ) reads (q, κ / 2, κ mod 2)
  refine (shapeCast_apply _ _ (ix2 q k) (ix3 q ⟨k.val / 2, hh⟩ ⟨k.val % 2, Nat.mod_lt _ Nat.two_pos⟩)
    (by rw [Shape.rowMajor_val_three, Shape.rowMajor_val_two]
        show (q.val * 512 + k.val / 2) * 2 + k.val % 2 = q.val * 1024 + k.val
        omega)).trans ?_
  rcases Nat.mod_two_eq_zero_or_one k.val with h0 | h1
  · -- the low field: the first piece of the concatenation
    refine (concatenate_pair_apply_left (t := S512x512x2) (s₁ := S512x512x1) (s₂ := S512x512x1)
      (2 : Fin 3) _ _ _
      (ix3 q ⟨k.val / 2, hh⟩ ⟨k.val % 2, Nat.mod_lt _ Nat.two_pos⟩) rfl (ix3 q ⟨k.val / 2, hh⟩ ⟨0, Nat.one_pos⟩)
      (fun b => match b with
        | ⟨0, _⟩ => rfl
        | ⟨1, _⟩ => rfl
        | ⟨2, _⟩ => by show 0 = k.val % 2; omega)).trans ?_
    refine (shapeCast_apply _ _ _ (ix2 q ⟨k.val / 2, hh⟩)
      (by rw [Shape.rowMajor_val_two, Shape.rowMajor_val_three]
          show q.val * 512 + k.val / 2 = (q.val * 512 + k.val / 2) * 1 + 0
          omega)).trans ?_
    show FloatOps.sitofp (F := Ideal) .f32 (IntOp.andi (v3 (ix2 q ⟨k.val / 2, hh⟩)) 15#32) = _
    unfold Cert.Dequant.field
    rw [if_pos h0]
  · -- the high field: the second piece
    refine (concatenate_pair_apply_right (t := S512x512x2) (s₁ := S512x512x1) (s₂ := S512x512x1)
      (2 : Fin 3) _ _ _
      (ix3 q ⟨k.val / 2, hh⟩ ⟨k.val % 2, Nat.mod_lt _ Nat.two_pos⟩) rfl rfl (ix3 q ⟨k.val / 2, hh⟩ ⟨0, Nat.one_pos⟩)
      (fun b hb => match b, hb with
        | ⟨0, _⟩, _ => rfl
        | ⟨1, _⟩, _ => rfl
        | ⟨2, _⟩, hb => absurd (Fin.ext rfl) hb)
      (by show 0 + 1 = k.val % 2; omega)).trans ?_
    refine (shapeCast_apply _ _ _ (ix2 q ⟨k.val / 2, hh⟩)
      (by rw [Shape.rowMajor_val_two, Shape.rowMajor_val_three]
          show q.val * 512 + k.val / 2 = (q.val * 512 + k.val / 2) * 1 + 0
          omega)).trans ?_
    show FloatOps.sitofp (F := Ideal) .f32
      (IntOp.andi (IntOp.shrsi .vector (v3 (ix2 q ⟨k.val / 2, hh⟩)) 4#32) 15#32) = _
    unfold Cert.Dequant.field
    rw [if_neg (by omega)]

/-- The weight block at (q, κ) is the weight of the specification. -/
theorem wblock_apply (v3 : IVec S512x512 32) (v17 v18 : FVec Ideal S8x512 .f32) (q : Fin 512) (k : Fin 1024) :
    wblock v3 v17 v18 (ix2 q k)
      = Cert.Dequant.weight v3 v17 v18 q k.val (by have := k.isLt; omega) (by have := k.isLt; omega) := by
  have hk := k.isLt
  have hg : k.val / 128 < 8 := by omega
  unfold wblock
  -- the cast that merged group and lane: (q, κ) reads (q, κ / 128, κ mod 128)
  refine (shapeCast_apply _ _ (ix2 q k) (ix3 q ⟨k.val / 128, hg⟩ ⟨k.val % 128, Nat.mod_lt _ (by omega)⟩)
    (by rw [Shape.rowMajor_val_three, Shape.rowMajor_val_two]
        show (q.val * 8 + k.val / 128) * 128 + k.val % 128 = q.val * 1024 + k.val
        omega)).trans ?_
  rw [subf_apply, mulf_apply, spread_apply, spread_apply]
  -- the cast that split the columns into groups: (q, κ / 128, κ mod 128) reads (q, κ)
  rw [shapeCast_apply (unpacked v3) shapeCasts_S512x1024_S512x8x128 _ (ix2 q k)
    (by rw [Shape.rowMajor_val_two, Shape.rowMajor_val_three]
        show q.val * 1024 + k.val = (q.val * 8 + k.val / 128) * 128 + k.val % 128
        omega)]
  rw [unpacked_apply]
  rfl

/-! ## The step -/

/-- The second stored value at (p, q): the running value plus the sum over the 1024 columns of the block of
    x(p, κ) times the weight at (q, κ). -/
theorem step_apply (v3 : IVec S512x512 32) (v17 v18 : FVec Ideal S8x512 .f32) (v29 : FVec Ideal S1024x1024 .f32)
    (v31 : FVec Ideal S1024x512 .f32) (p : Fin 1024) (q : Fin 512) :
    k0_pay2 (F := Ideal) v3 v17 v18 v29 v31 (ix2 p q)
      = v31 (ix2 p q) + ∑ k : Fin 1024, v29 (ix2 p k) *
          Cert.Dequant.weight v3 v17 v18 q k.val (by have := k.isLt; omega) (by have := k.isLt; omega) := by
  show shapeCast S1024x512
    (addf v31 (FloatOps.matmul (DotDims.transposedRhs 1024 1024 512) none
      (truncf .bf16 v29 bitsLt_bf16_f32) (truncf .bf16 (wblock v3 v17 v18) bitsLt_bf16_f32)
      (constant S1024x512 .f32 0x00000000#32)))
    shapeCasts_S1024x512_S1024x512 (ix2 p q) = _
  rw [shapeCast_self, addf_apply, Cert.LibDotTransposedRhs.matmul_zero_apply]
  refine congrArg (v31 (ix2 p q) + ·) (Finset.sum_congr rfl fun k _ => ?_)
  show v29 (ix2 p k) * wblock v3 v17 v18 (ix2 q k) = _
  rw [wblock_apply]

end Cert.KernelIdeal.StepValue

end
-- ==== Proof.Final.lean ====
/-
  From the running block to the whole result array.

  Step n = 8·r + s (s < 8) of the grid works on row block r / 16 of x (1024 rows), on row block r mod 16 of the weight
  matrix (512 rows) and on column chunk s (1024 consecutive columns). Its x block, read at (p, k), is x at
  (1024·(r/16) + p, 1024·s + k); its blocks of packed words, scales and zeros, read where the weight at (q, k) reads
  them, are the arrays read where the weight at (512·(r mod 16) + q, 1024·s + k) reads them. So the step's addend at
  (p, q) is the sum over chunk s of x(R, κ) · weight(O, κ) with R = 1024·(r/16) + p and O = 512·(r mod 16) + q, the
  eight steps of a run add up to the sum over all 8192 columns, and the block written back at the run's last step is
  that block of the result. The blocks written back tile the array.
-/
import proofs.«401464_j35150012350702_1_alg».proof.Proof.Fold
import proofs.«401464_j35150012350702_1_alg».proof.Proof.Dequant
import proofs.«401464_j35150012350702_1_alg».proof.Proof.StepValue

noncomputable section

open scoped BigOperators

namespace Cert.KernelIdeal.Final

open Cert.KernelIdeal Cert.KernelIdeal.Gen Cert.KernelIdeal.Value Cert.KernelIdeal.Fold
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The four argument arrays, at their literal shapes. -/
abbrev xarr (c : Dev nD) : FVec Ideal S4096x8192 .f32 := m ((c : Thread nD τ).loc main_arg0)
abbrev qarr (c : Dev nD) : IVec S8192x4096 32 := m ((c : Thread nD τ).loc main_arg1)
abbrev sarr (c : Dev nD) : FVec Ideal S64x8192 .f32 := m ((c : Thread nD τ).loc main_arg2)
abbrev zarr (c : Dev nD) : FVec Ideal S64x8192 .f32 := m ((c : Thread nD τ).loc main_arg3)

/-- The result array's contents: the specification at the arguments. -/
abbrev result (c : Dev nD) : Buf (Elt Ideal) ((c : Thread nD τ).loc main_v0) :=
  Cert.Dequant.result (xarr m c) (qarr m c) (sarr m c) (zarr m c)

/-- Which block each window holds at step t = (a·16 + b)·8 + s: x's (a, s), the packed words' (b, s), the scales' and
    the zeros' (s, b), the output's (a, b). -/
theorem idx_facts : ∀ t : Fin cfg0.N,
    win0_0.index t (0 : Fin 2) = t.val / 128 ∧ win0_0.index t (1 : Fin 2) = t.val % 8
    ∧ win0_1.index t (0 : Fin 2) = t.val / 8 % 16 ∧ win0_1.index t (1 : Fin 2) = t.val % 8
    ∧ win0_2.index t (0 : Fin 2) = t.val % 8 ∧ win0_2.index t (1 : Fin 2) = t.val / 8 % 16
    ∧ win0_3.index t (0 : Fin 2) = t.val % 8 ∧ win0_3.index t (1 : Fin 2) = t.val / 8 % 16
    ∧ win0_4.index t (0 : Fin 2) = t.val / 128 ∧ win0_4.index t (1 : Fin 2) = t.val / 8 % 16 :=
  (by decide +kernel : ∀ t : Fin grid0.N, _)

/-- The x block of step t at (p, k) is x at (1024·(t/128) + p, 1024·(t mod 8) + k). -/
theorem xblk_apply (c : Dev nD) (t : Fin cfg0.N) (p k : Fin 1024) (i : S4096x8192.Idx)
    (h0 : (i 0).val = 1024 * (t.val / 128) + p.val) (h1 : (i 1).val = 1024 * (t.val % 8) + k.val) :
    xblk m c t (ix2 p k) = xarr m c i := by
  obtain ⟨e0, e1, -⟩ := idx_facts t
  show iblk m c 0 t (ix2 p k) = _
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * p.val = (i 0).val; rw [e0, h0]; omega
  | ⟨1, _⟩ => show win0_0.index t (1 : Fin 2) * 1024 + 1 * k.val = (i 1).val; rw [e1, h1]; omega

/-- The block of packed words of step t at (q, k) is the array at (512·(t/8 mod 16) + q, 512·(t mod 8) + k). -/
theorem qblk_apply (c : Dev nD) (t : Fin cfg0.N) (q k : Fin 512) (i : S8192x4096.Idx)
    (h0 : (i 0).val = 512 * (t.val / 8 % 16) + q.val) (h1 : (i 1).val = 512 * (t.val % 8) + k.val) :
    qblk m c t (ix2 q k) = qarr m c i := by
  obtain ⟨-, -, e0, e1, -⟩ := idx_facts t
  show iblk m c 1 t (ix2 q k) = _
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 512 + 1 * q.val = (i 0).val; rw [e0, h0]; omega
  | ⟨1, _⟩ => show win0_1.index t (1 : Fin 2) * 512 + 1 * k.val = (i 1).val; rw [e1, h1]; omega

/-- The block of scales of step t at (g, q) is the array at (8·(t mod 8) + g, 512·(t/8 mod 16) + q). -/
theorem sblk_apply (c : Dev nD) (t : Fin cfg0.N) (g : Fin 8) (q : Fin 512) (i : S64x8192.Idx)
    (h0 : (i 0).val = 8 * (t.val % 8) + g.val) (h1 : (i 1).val = 512 * (t.val / 8 % 16) + q.val) :
    sblk m c t (ix2 g q) = sarr m c i := by
  obtain ⟨-, -, -, -, e0, e1, -⟩ := idx_facts t
  show iblk m c 2 t (ix2 g q) = _
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 8 + 1 * g.val = (i 0).val; rw [e0, h0]; omega
  | ⟨1, _⟩ => show win0_2.index t (1 : Fin 2) * 512 + 1 * q.val = (i 1).val; rw [e1, h1]; omega

/-- The block of zeros likewise. -/
theorem zblk_apply (c : Dev nD) (t : Fin cfg0.N) (g : Fin 8) (q : Fin 512) (i : S64x8192.Idx)
    (h0 : (i 0).val = 8 * (t.val % 8) + g.val) (h1 : (i 1).val = 512 * (t.val / 8 % 16) + q.val) :
    zblk m c t (ix2 g q) = zarr m c i := by
  obtain ⟨-, -, -, -, -, -, e0, e1, -⟩ := idx_facts t
  show iblk m c 3 t (ix2 g q) = _
  unfold iblk
  rw [View.read_apply]
  show m ((c : Thread nD τ).loc main_arg3) _ = m ((c : Thread nD τ).loc main_arg3) _
  congr 1
  funext a
  apply Fin.ext
  match a with
  | ⟨0, _⟩ => show win0_3.index t (0 : Fin 2) * 8 + 1 * g.val = (i 0).val; rw [e0, h0]; omega
  | ⟨1, _⟩ => show win0_3.index t (1 : Fin 2) * 512 + 1 * q.val = (i 1).val; rw [e1, h1]; omega

/-- The weight read off step t's blocks at (q, k) is the weight read off the arrays at row 512·(t/8 mod 16) + q and
    column 1024·(t mod 8) + k: the column's packed column, field and group all move with the chunk. -/
theorem weight_blk (c : Dev nD) (t : Fin cfg0.N) (q : Fin 512) (k : Fin 1024) (O : Fin 8192)
    (hO : O.val = 512 * (t.val / 8 % 16) + q.val)
    (h2 : k.val / 2 < 512) (hg : k.val / 128 < 8)
    (h2' : (1024 * (t.val % 8) + k.val) / 2 < 4096) (hg' : (1024 * (t.val % 8) + k.val) / 128 < 64) :
    Cert.Dequant.weight (qblk m c t) (sblk m c t) (zblk m c t) q k.val h2 hg
      = Cert.Dequant.weight (qarr m c) (sarr m c) (zarr m c) O (1024 * (t.val % 8) + k.val) h2' hg' := by
  have hk := k.isLt
  unfold Cert.Dequant.weight
  rw [qblk_apply m c t q ⟨k.val / 2, h2⟩ (ix2 O ⟨(1024 * (t.val % 8) + k.val) / 2, h2'⟩) hO
      (by show (1024 * (t.val % 8) + k.val) / 2 = 512 * (t.val % 8) + k.val / 2; omega),
    sblk_apply m c t ⟨k.val / 128, hg⟩ q (ix2 ⟨(1024 * (t.val % 8) + k.val) / 128, hg'⟩ O)
      (by show (1024 * (t.val % 8) + k.val) / 128 = 8 * (t.val % 8) + k.val / 128; omega) hO,
    zblk_apply m c t ⟨k.val / 128, hg⟩ q (ix2 ⟨(1024 * (t.val % 8) + k.val) / 128, hg'⟩ O)
      (by show (1024 * (t.val % 8) + k.val) / 128 = 8 * (t.val % 8) + k.val / 128; omega) hO,
    show (1024 * (t.val % 8) + k.val) % 2 = k.val % 2 from by omega]

/-- One column's term of the result at (R, O): x(R, κ) · weight(O, κ), and 0 past the last column. -/
def term (c : Dev nD) (R : Fin 4096) (O : Fin 8192) (κ : ℕ) : EReal :=
  if h : κ < 8192 then
    xarr m c (ix2 R ⟨κ, h⟩) * Cert.Dequant.weight (qarr m c) (sarr m c) (zarr m c) O κ (by omega) (by omega)
  else 0

/-- The result at (R, O) is the sum of the terms of all columns. -/
theorem result_apply (c : Dev nD) (R : Fin 4096) (O : Fin 8192) :
    result m c (ix2 R O) = ∑ κ : Fin 8192, term m c R O κ.val := by
  show Cert.Dequant.result (xarr m c) (qarr m c) (sarr m c) (zarr m c) (ix2 R O) = _
  unfold Cert.Dequant.result
  refine Finset.sum_congr rfl fun κ _ => ?_
  unfold term
  rw [dif_pos κ.isLt]

/-- The addend of step n at (p, q): its x block's row p times its weight block's row q, summed over the chunk
    (and 0 past the grid). -/
def addend (c : Dev nD) (n : ℕ) (j : S1024x512.Idx) : EReal :=
  if h : n < cfg0.N then
    ∑ k : Fin 1024, xblk m c ⟨n, h⟩ (ix2 (j 0) k) *
      Cert.Dequant.weight (qblk m c ⟨n, h⟩) (sblk m c ⟨n, h⟩) (zblk m c ⟨n, h⟩) (j 1) k.val
        (by have := k.isLt; omega) (by have := k.isLt; omega)
  else 0

/-- A step, at an index: what was carried in plus the step's addend. -/
theorem stepAt_apply (c : Dev nD) (n : ℕ) (hb : n < cfg0.N) (acc : Vec Ideal S1024x512 .f32) (j : S1024x512.Idx) :
    stepAt m c n hb acc j = acc j + addend m c n j := by
  obtain ⟨p, q, rfl⟩ : ∃ (p : Fin 1024) (q : Fin 512), j = ix2 p q := ⟨j 0, j 1, eq_ix2 j⟩
  unfold stepAt addend
  rw [dif_pos hb]
  exact StepValue.step_apply _ _ _ _ _ p q

/-- The addend of step n at (p, q) is chunk n mod 8 of the result's sum at (R, O), for R and O the row and column
    the step's output block puts (p, q) at. -/
theorem addend_eq (c : Dev nD) (n : ℕ) (hn : n < cfg0.N) (s : ℕ) (hs : n % 8 = s) (p : Fin 1024) (q : Fin 512)
    (R : Fin 4096) (O : Fin 8192) (hR : R.val = 1024 * (n / 128) + p.val) (hO : O.val = 512 * (n / 8 % 16) + q.val) :
    addend m c n (ix2 p q) = ∑ k : Fin 1024, term m c R O (1024 * s + k.val) := by
  subst hs
  unfold addend
  rw [dif_pos hn]
  refine Finset.sum_congr rfl fun k _ => ?_
  have hk := k.isLt
  have hlt : 1024 * (n % 8) + k.val < 8192 := by omega
  unfold term
  rw [dif_pos hlt]
  refine congrArg₂ (· * ·) ?_ ?_
  · exact xblk_apply m c ⟨n, hn⟩ p k _ hR rfl
  · exact weight_blk m c ⟨n, hn⟩ q k O hO _ _ _ _

/-- What the scratch holds after step j of run r: the sum of the addends of the run's steps so far. -/
theorem scratch_sum (c : Dev nD) (r j : ℕ) (hj : j ≤ 7) (h : 8 * r + j < cfg0.N) (i : S1024x512.Idx) :
    Pipeline.accAt (fun n h => scAt0_0 m c n h (VS0_0.read (Elt Ideal) VS0_0.junk)) (scAt0_0 m c) (8 * r) j h i
      = 0 + ∑ s ∈ Finset.range (j + 1), addend m c (8 * r + s) i := by
  refine Pipeline.accAt_add_apply _ _ (fun _ => (0 : EReal)) (addend m c) (8 * r) 7 (fun h i => ?_) (fun n h acc i h1 h2 => ?_) j hj h i
  · show scAt0_0 m c (8 * r) h _ i = 0 + addend m c (8 * r) i
    rw [Fold.scratch_first m c (8 * r) h (by omega), stepAt_apply, StepValue.zero_apply]
  · rw [Fold.scratch_later m c n h (by omega), stepAt_apply]

/-- The output block after the last step of a run, at (p, q): the result at the array index the block puts (p, q) at. -/
theorem out_apply (c : Dev nD) (t : Fin cfg0.N) (h7 : t.val % 8 = 7) (p : Fin 1024) (q : Fin 512)
    (R : Fin 4096) (O : Fin 8192) (hR : R.val = 1024 * (t.val / 128) + p.val) (hO : O.val = 512 * (t.val / 8 % 16) + q.val) :
    (outsAt0 m c t.val t.isLt).1 (ix2 p q) = result m c (ix2 R O) := by
  have hN : cfg0.N = 512 := N_0
  have ht := t.isLt
  rw [Fold.out_eq_scratch m c t h7, soutsAt0_0_eq m c t]
  have e := scratch_sum m c (t.val / 8) (t.val % 8) (by omega) (by omega) (ix2 p q)
  rw [e, zero_add, h7, result_apply, Cert.Dequant.sum_chunks (term m c R O)]
  refine Finset.sum_congr rfl fun s hs => ?_
  have hs8 : s < 8 := Finset.mem_range.mp hs
  exact addend_eq m c (8 * (t.val / 8) + s) (by omega) s (by omega) p q R O (by rw [hR]; omega) (by rw [hO]; omega)

/-- What the last step of a run writes back is its block of the result. -/
theorem flushed_eq (c : Dev nD) (t : Fin cfg0.N) (hf : (cfg0.win 4).flush t = true) :
    (dats m 0 c).flushed 4 t = ((cfg0.win 4).blk t).view.read (Elt Ideal) (result m c) := by
  have hN : cfg0.N = 512 := N_0
  have ht := t.isLt
  have h7 : t.val % 8 = 7 := (flush0_4 t).mp hf
  obtain ⟨-, -, -, -, -, -, -, -, e0, e1⟩ := idx_facts t
  rw [flushed4]
  funext j
  rw [View.read_apply]
  obtain ⟨p, q, rfl⟩ : ∃ (p : Fin 1024) (q : Fin 512), j = ix2 p q := ⟨j 0, j 1, eq_ix2 j⟩
  show (outsAt0 m c t.val t.isLt).1 (ix2 p q) = result m c (((cfg0.win 4).blk t).view.emb (ix2 p q))
  refine (out_apply m c t h7 p q ⟨1024 * (t.val / 128) + p.val, by have := p.isLt; omega⟩
    ⟨512 * (t.val / 8 % 16) + q.val, by have := q.isLt; omega⟩ rfl rfl).trans ?_
  congr 1
  funext a
  apply Fin.ext
  match a with
  | ⟨0, _⟩ => show 1024 * (t.val / 128) + p.val = win0_4.index t (0 : Fin 2) * 1024 + 1 * p.val; rw [e0]; omega
  | ⟨1, _⟩ => show 512 * (t.val / 8 % 16) + q.val = win0_4.index t (1 : Fin 2) * 512 + 1 * q.val; rw [e1]; omega

/-- An index of the array is in step t's output block iff each coordinate is in the block's range on its axis. -/
theorem mem_blk (t : Fin cfg0.N) (i : S4096x8192.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v0).slice (win0_4.rect t)).set ↔ _
  rw [View.set_slice_whole, Rect.mem_set_unit]
  exact Iff.rfl

/-- Every index (R, O) of the array lies in the block written back at the last step of run (R / 1024)·16 + O / 512. -/
theorem cover (i : S4096x8192.Idx) : ∃ t : Fin cfg0.N, (cfg0.win 4).flush t = true ∧ i ∈ ((cfg0.win 4).blk t).view.set := by
  have hN : cfg0.N = 512 := N_0
  have hi0 : (i 0).val < 4096 := (i 0).isLt
  have hi1 : (i 1).val < 8192 := (i 1).isLt
  refine ⟨⟨((i 0).val / 1024 * 16 + (i 1).val / 512) * 8 + 7, by omega⟩, (flush0_4 _).mpr (by show (((i 0).val / 1024 * 16 + (i 1).val / 512) * 8 + 7) % 8 = 7; omega), ?_⟩
  obtain ⟨-, -, -, -, -, -, -, -, e0, e1⟩ := idx_facts ⟨((i 0).val / 1024 * 16 + (i 1).val / 512) * 8 + 7, by omega⟩
  rw [mem_blk]
  intro a
  match a with
  | ⟨0, _⟩ =>
    show win0_4.index _ (0 : Fin 2) * 1024 ≤ (i 0).val ∧ (i 0).val < win0_4.index _ (0 : Fin 2) * 1024 + 1024
    rw [e0]
    show (((i 0).val / 1024 * 16 + (i 1).val / 512) * 8 + 7) / 128 * 1024 ≤ (i 0).val ∧ (i 0).val < (((i 0).val / 1024 * 16 + (i 1).val / 512) * 8 + 7) / 128 * 1024 + 1024
    omega
  | ⟨1, _⟩ =>
    show win0_4.index _ (1 : Fin 2) * 512 ≤ (i 1).val ∧ (i 1).val < win0_4.index _ (1 : Fin 2) * 512 + 512
    rw [e1]
    show (((i 0).val / 1024 * 16 + (i 1).val / 512) * 8 + 7) / 8 % 16 * 512 ≤ (i 1).val ∧ (i 1).val < (((i 0).val / 1024 * 16 + (i 1).val / 512) * 8 + 7) / 8 % 16 * 512 + 512
    omega

/-- The result array after the run. -/
theorem final (c : Dev nD) : (dats m 0 c).arrAt 4 cfg0.N = result m c :=
  (dats m 0 c).arrAt_eq_of_cover 4 (result m c) (flushed_eq m c) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Final

end
-- ==== Proof.RefValue.lean ====
/-
  The reference program's result is the 4-bit group-quantized product of the specification.

  The reference unpacks each packed word into its two 4-bit fields, stacks them on a new last axis and flattens,
  so that column κ of the unpacked [8192, 8192] matrix is field κ mod 2 of packed column κ / 2. It converts to
  float, views the columns as 64 groups of 128, multiplies by the scale of the group and subtracts the zero of
  the group (scales and zeros are stored group-major, hence transposed first), flattens back, and multiplies the
  activations by the transpose of that weight matrix.

  Read at one index, every reshape is a statement about row-major positions:
    position o·8192 + κ of [8192, 8192] is (o, κ / 128, κ mod 128) of [8192, 64, 128] and
    (o, κ / 2, κ mod 2) of [8192, 4096, 2].
  The concatenation along the last axis reads its first piece at last coordinate 0 and its second at 1.
  The host's arithmetic shift by four is the vector unit's. The product is the sum over the inner coordinate.
-/
import proofs.«401464_j35150012350702_1_alg».proof.Proof.Gen.ReferenceIdeal.Read
import proofs.«401464_j35150012350702_1_alg».proof.Proof.Dequant
import proofs.«401464_j35150012350702_1_alg».proof.Proof.LibDotTransposedRhs
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## Row-major positions -/

/-- Position o·8192 + κ of the [8192, 8192] array is position (o, κ / 128, κ mod 128) of the [8192, 64, 128] array. -/
theorem idx20 (o κ : Fin 8192) :
    idx_main_v20 (ix2 o κ)
      = ix3 o (⟨κ.val / 128, by have := κ.isLt; omega⟩ : Fin 64) (⟨κ.val % 128, Nat.mod_lt _ (by decide)⟩ : Fin 128) := by
  funext a
  match a with
  | ⟨0, _⟩ => exact Fin.ext (by show (o.val * 8192 + κ.val) / 8192 = o.val; have := κ.isLt; omega)
  | ⟨1, _⟩ => exact Fin.ext (by show (o.val * 8192 + κ.val) / 128 % 64 = κ.val / 128; have := κ.isLt; omega)
  | ⟨2, _⟩ => exact Fin.ext (by show (o.val * 8192 + κ.val) % 128 = κ.val % 128; omega)

/-- Position (o, κ / 128, κ mod 128) of the [8192, 64, 128] array is position (o, κ) of the [8192, 8192] array. -/
theorem idx11 (o κ : Fin 8192) :
    idx_main_v11 (ix3 o (⟨κ.val / 128, by have := κ.isLt; omega⟩ : Fin 64) (⟨κ.val % 128, Nat.mod_lt _ (by decide)⟩ : Fin 128))
      = ix2 o κ := by
  funext a
  match a with
  | ⟨0, _⟩ =>
    exact Fin.ext (by
      show ((o.val * 64 + κ.val / 128) * 128 + κ.val % 128) / 8192 = o.val
      have := κ.isLt; omega)
  | ⟨1, _⟩ =>
    exact Fin.ext (by
      show ((o.val * 64 + κ.val / 128) * 128 + κ.val % 128) % 8192 = κ.val
      have := κ.isLt; omega)

/-- Position o·8192 + κ of the [8192, 8192] array is position (o, κ / 2, κ mod 2) of the [8192, 4096, 2] array. -/
theorem idx9 (o κ : Fin 8192) :
    idx_main_v9 (ix2 o κ)
      = ix3 o (⟨κ.val / 2, by have := κ.isLt; omega⟩ : Fin 4096) (⟨κ.val % 2, Nat.mod_lt _ (by decide)⟩ : Fin 2) := by
  funext a
  match a with
  | ⟨0, _⟩ => exact Fin.ext (by show (o.val * 8192 + κ.val) / 8192 = o.val; have := κ.isLt; omega)
  | ⟨1, _⟩ => exact Fin.ext (by show (o.val * 8192 + κ.val) / 2 % 4096 = κ.val / 2; have := κ.isLt; omega)
  | ⟨2, _⟩ => exact Fin.ext (by show (o.val * 8192 + κ.val) % 2 = κ.val % 2; omega)

/-- Dropping the unit last axis of an index of [8192, 4096, 1]. -/
theorem idx6 (o : Fin 8192) (p : Fin 4096) (u : Fin 1) : idx_main_v6 (ix3 o p u) = ix2 o p := by
  funext a
  match a with
  | ⟨0, _⟩ => rfl
  | ⟨1, _⟩ => rfl

/-- The same for the second piece. -/
theorem idx7 (o : Fin 8192) (p : Fin 4096) (u : Fin 1) : idx_main_v7 (ix3 o p u) = ix2 o p := by
  funext a
  match a with
  | ⟨0, _⟩ => rfl
  | ⟨1, _⟩ => rfl

/-- A scale or zero broadcast over the last axis and read at (o, g, l) comes from (g, o) of the group-major array. -/
theorem idxScale (o : Fin 8192) (g : Fin 64) (l : Fin 128) :
    idx_main_v12 (idx_main_v13 (idx_main_v16 (ix3 o g l))) = ix2 g o := by
  funext a
  match a with
  | ⟨0, _⟩ => rfl
  | ⟨1, _⟩ => rfl

/-- The same for the zeros. -/
theorem idxZero (o : Fin 8192) (g : Fin 64) (l : Fin 128) :
    idx_main_v14 (idx_main_v15 (idx_main_v18 (ix3 o g l))) = ix2 g o := by
  funext a
  match a with
  | ⟨0, _⟩ => rfl
  | ⟨1, _⟩ => rfl

/-! ## The two fields -/

/-- The mask constant, broadcast: 15 everywhere. -/
theorem v0_at (j : S8192x4096.Idx) : val_main_v0 (F := Ideal) j = 15#32 :=
  (val_main_v0_apply (F := Ideal) j).trans rfl

/-- The shift amount, broadcast: 4 everywhere. -/
theorem v2_at (j : S8192x4096.Idx) : val_main_v2 (F := Ideal) j = 4#32 :=
  (val_main_v2_apply (F := Ideal) j).trans rfl

/-- The second mask constant, broadcast: 15 everywhere. -/
theorem v4_at (j : S8192x4096.Idx) : val_main_v4 (F := Ideal) j = 15#32 :=
  (val_main_v4_apply (F := Ideal) j).trans rfl

/-- The low field of the word at (o, p). -/
theorem v1_at (x1 : IVec S8192x4096 32) (j : S8192x4096.Idx) :
    val_main_v1 (F := Ideal) x1 j = IntOp.andi (x1 j) 15#32 :=
  (val_main_v1_apply (F := Ideal) x1 j).trans (congrArg (IntOp.andi (x1 j)) (v0_at j))

/-- The high field of the word at (o, p), with the host's shift. -/
theorem v5_at (x1 : IVec S8192x4096 32) (j : S8192x4096.Idx) :
    val_main_v5 (F := Ideal) x1 j = IntOp.andi (IntOp.shrsi .host (x1 j) 4#32) 15#32 := by
  refine (val_main_v5_apply (F := Ideal) x1 j).trans ?_
  refine (congrArg (IntOp.andi (val_main_v3 (F := Ideal) x1 j)) (v4_at j)).trans ?_
  refine congrArg (fun w => IntOp.andi w 15#32) ?_
  exact (val_main_v3_apply (F := Ideal) x1 j).trans (congrArg (IntOp.shrsi .host (x1 j)) (v2_at j))

/-- The stacked array at last coordinate 0 is the low field. -/
theorem v8_left (x1 : IVec S8192x4096 32) (o : Fin 8192) (p : Fin 4096) :
    val_main_v8 (F := Ideal) x1 (ix3 o p (⟨0, by decide⟩ : Fin 2)) = IntOp.andi (x1 (ix2 o p)) 15#32 := by
  unfold val_main_v8
  refine (concatenate_pair_apply_left _ _ _ concatenates_S8192x4096x1_S8192x4096x1_S8192x4096x2_d2
    (ix3 o p (⟨0, by decide⟩ : Fin 2)) rfl (ix3 o p (⟨0, Nat.one_pos⟩ : Fin 1)) ?_).trans ?_
  · intro b
    match b with
    | ⟨0, _⟩ => rfl
    | ⟨1, _⟩ => rfl
    | ⟨2, _⟩ => rfl
  · refine (val_main_v6_apply (F := Ideal) x1 _).trans ?_
    refine (v1_at x1 _).trans ?_
    exact congrArg (fun j => IntOp.andi (x1 j) 15#32) (idx6 o p _)

/-- The stacked array at last coordinate 1 is the high field. -/
theorem v8_right (x1 : IVec S8192x4096 32) (o : Fin 8192) (p : Fin 4096) :
    val_main_v8 (F := Ideal) x1 (ix3 o p (⟨1, by decide⟩ : Fin 2))
      = IntOp.andi (IntOp.shrsi .host (x1 (ix2 o p)) 4#32) 15#32 := by
  unfold val_main_v8
  refine (concatenate_pair_apply_right _ _ _ concatenates_S8192x4096x1_S8192x4096x1_S8192x4096x2_d2
    (ix3 o p (⟨1, by decide⟩ : Fin 2)) rfl rfl (ix3 o p (⟨0, Nat.one_pos⟩ : Fin 1)) ?_ ?_).trans ?_
  · intro b hb
    match b, hb with
    | ⟨0, _⟩, _ => rfl
    | ⟨1, _⟩, _ => rfl
    | ⟨2, _⟩, hb => exact absurd rfl hb
  · rfl
  · refine (val_main_v7_apply (F := Ideal) x1 _).trans ?_
    refine (v5_at x1 _).trans ?_
    exact congrArg (fun j => IntOp.andi (IntOp.shrsi .host (x1 j) 4#32) 15#32) (idx7 o p _)

/-- Column κ of the unpacked matrix is field κ mod 2 of packed column κ / 2. -/
theorem v9_at (x1 : IVec S8192x4096 32) (o κ : Fin 8192) :
    val_main_v9 (F := Ideal) x1 (ix2 o κ)
      = Cert.Dequant.field (x1 (ix2 o (⟨κ.val / 2, by have := κ.isLt; omega⟩ : Fin 4096))) (κ.val % 2) := by
  refine (val_main_v9_apply (F := Ideal) x1 (ix2 o κ)).trans ?_
  refine (congrArg (val_main_v8 (F := Ideal) x1) (idx9 o κ)).trans ?_
  rcases Nat.mod_two_eq_zero_or_one κ.val with h | h
  · have e : (⟨κ.val % 2, Nat.mod_lt _ (by decide)⟩ : Fin 2) = ⟨0, by decide⟩ := Fin.ext h
    refine (congrArg (fun b => val_main_v8 (F := Ideal) x1 (ix3 o (⟨κ.val / 2, by have := κ.isLt; omega⟩ : Fin 4096) b)) e).trans ?_
    refine (v8_left x1 o _).trans ?_
    unfold Cert.Dequant.field
    rw [if_pos h]
  · have e : (⟨κ.val % 2, Nat.mod_lt _ (by decide)⟩ : Fin 2) = ⟨1, by decide⟩ := Fin.ext h
    refine (congrArg (fun b => val_main_v8 (F := Ideal) x1 (ix3 o (⟨κ.val / 2, by have := κ.isLt; omega⟩ : Fin 4096) b)) e).trans ?_
    refine (v8_right x1 o _).trans ?_
    unfold Cert.Dequant.field
    rw [if_neg (by omega), Cert.Dequant.shrsi_host_four]

/-! ## The weight matrix -/

/-- The scale read at (o, g, l) is the scale of group g and row o. -/
theorem v16_at (x2 : FVec Ideal S64x8192 .f32) (o : Fin 8192) (g : Fin 64) (l : Fin 128) :
    val_main_v16 (F := Ideal) x2 (ix3 o g l) = x2 (ix2 g o) := by
  refine (val_main_v16_apply (F := Ideal) x2 _).trans ?_
  refine (val_main_v13_apply (F := Ideal) x2 _).trans ?_
  refine (val_main_v12_apply (F := Ideal) x2 _).trans ?_
  exact congrArg x2 (idxScale o g l)

/-- The zero read at (o, g, l) is the zero of group g and row o. -/
theorem v18_at (x3 : FVec Ideal S64x8192 .f32) (o : Fin 8192) (g : Fin 64) (l : Fin 128) :
    val_main_v18 (F := Ideal) x3 (ix3 o g l) = x3 (ix2 g o) := by
  refine (val_main_v18_apply (F := Ideal) x3 _).trans ?_
  refine (val_main_v15_apply (F := Ideal) x3 _).trans ?_
  refine (val_main_v14_apply (F := Ideal) x3 _).trans ?_
  exact congrArg x3 (idxZero o g l)

/-- The converted field read at (o, κ / 128, κ mod 128) is the field of column κ, as a float. -/
theorem v11_at (x1 : IVec S8192x4096 32) (o κ : Fin 8192) :
    val_main_v11 (F := Ideal) x1
        (ix3 o (⟨κ.val / 128, by have := κ.isLt; omega⟩ : Fin 64) (⟨κ.val % 128, Nat.mod_lt _ (by decide)⟩ : Fin 128))
      = FloatOps.sitofp (F := Ideal) .f32
          (Cert.Dequant.field (x1 (ix2 o (⟨κ.val / 2, by have := κ.isLt; omega⟩ : Fin 4096))) (κ.val % 2)) := by
  refine (val_main_v11_apply (F := Ideal) x1 _).trans ?_
  refine (congrArg (val_main_v10 (F := Ideal) x1) (idx11 o κ)).trans ?_
  refine (val_main_v10_apply (F := Ideal) x1 (ix2 o κ)).trans ?_
  exact congrArg (FloatOps.sitofp (F := Ideal) .f32) (v9_at x1 o κ)

/-- The reference's weight matrix at (o, κ) is the specification's weight. -/
theorem weight_eq (x1 : IVec S8192x4096 32) (x2 x3 : FVec Ideal S64x8192 .f32) (o κ : Fin 8192) :
    val_main_v20 (F := Ideal) x1 x2 x3 (ix2 o κ)
      = Cert.Dequant.weight x1 x2 x3 o κ.val (by have := κ.isLt; omega) (by have := κ.isLt; omega) := by
  refine (val_main_v20_apply (F := Ideal) x1 x2 x3 (ix2 o κ)).trans ?_
  refine (congrArg (val_main_v19 (F := Ideal) x1 x2 x3) (idx20 o κ)).trans ?_
  exact congrArg₂ (· - ·) (congrArg₂ (· * ·) (v11_at x1 o κ) (v16_at x2 o _ _)) (v18_at x3 o _ _)

/-! ## The product -/

/-- The left operand's index at output (r, o) and inner coordinate k. -/
theorem lidx21 (r : Fin 4096) (o k : Fin 8192) : lidx_main_v21 (ix2 r o) k = ix2 r k := by
  funext a
  match a with
  | ⟨0, _⟩ => rfl
  | ⟨1, _⟩ => rfl

/-- The right operand's index at output (r, o) and inner coordinate k: row o of the weight matrix. -/
theorem ridx21 (r : Fin 4096) (o k : Fin 8192) : ridx_main_v21 (ix2 r o) k = ix2 o k := by
  funext a
  match a with
  | ⟨0, _⟩ => rfl
  | ⟨1, _⟩ => rfl

/-- The reference program computes the specification's result. -/
theorem result_eq (x0 : FVec Ideal S4096x8192 .f32) (x1 : IVec S8192x4096 32) (x2 x3 : FVec Ideal S64x8192 .f32) :
    Cert.ReferenceIdeal.Read.val_main_v21 (F := Ideal) x0 x1 x2 x3 = Cert.Dequant.result x0 x1 x2 x3 := by
  funext i
  obtain ⟨r, o, rfl⟩ : ∃ (r : Fin 4096) (o : Fin 8192), i = ix2 r o := ⟨i 0, i 1, eq_ix2 i⟩
  refine (val_main_v21_apply x0 x1 x2 x3 (ix2 r o)).trans ?_
  show _ = ∑ κ : Fin 8192, x0 (ix2 r κ) *
    Cert.Dequant.weight x1 x2 x3 o κ.val (by have := κ.isLt; omega) (by have := κ.isLt; omega)
  refine Finset.sum_congr rfl fun k _ => ?_
  refine congrArg₂ (· * ·) (congrArg x0 (lidx21 r o k)) ?_
  exact (congrArg (val_main_v20 (F := Ideal) x1 x2 x3) (ridx21 r o k)).trans (weight_eq x1 x2 x3 o k)

end Cert.ReferenceIdeal.RefValue

end
-- ==== Proof.lean ====
/-
  A 4-bit group-quantized matrix product, tiled and accumulated, against the plain product with the unpacked weights.

  Both programs compute, at (r, o),  Σ_κ x(r, κ) · (field_κ(o) · scale(κ / 128, o) − zero(κ / 128, o))  over the 8192
  columns κ, where field_κ(o) is 4-bit field κ mod 2 of packed word (o, κ / 2) read as an integer. The reference
  unpacks the whole weight matrix and takes one product. The kernel walks a 4 × 16 × 8 grid: for each of the 4 × 16
  output blocks (1024 × 512) it unpacks, for each of 8 chunks of 1024 columns, the 512 × 1024 weight block on the
  fly, multiplies the 1024 × 1024 block of x by its transpose, and adds the product to a running block that starts
  at zero; the running block is written out after the eighth chunk. Over the extended reals the rounding to the
  narrower float format is the identity, and the sum over 8192 columns is the sum of the eight chunk sums, since
  addition there is commutative and associative: no finiteness of the inputs is used.

  The kernel's side: what a step leaves (StepIdeal), a step at an index (StepValue), the running block as a fold and
  the output block (Fold), from the blocks to the array (Final). The reference's side: RefValue. The common
  specification: Dequant. The product with a transposed right operand at an index: LibDotTransposedRhs.
-/
import proofs.«401464_j35150012350702_1_alg».proof.Defs
import proofs.«401464_j35150012350702_1_alg».proof.Proof.Gen.Kernel
import proofs.«401464_j35150012350702_1_alg».proof.Proof.Gen.Kernel.Skeleton
import proofs.«401464_j35150012350702_1_alg».proof.Proof.Gen.Kernel.Launch
import proofs.«401464_j35150012350702_1_alg».proof.Proof.Gen.Kernel.Points
import proofs.«401464_j35150012350702_1_alg».proof.Proof.Gen.Kernel.Frame
import proofs.«401464_j35150012350702_1_alg».proof.Proof.Gen.KernelIdeal
import proofs.«401464_j35150012350702_1_alg».proof.Proof.Gen.KernelIdeal.Skeleton
import proofs.«401464_j35150012350702_1_alg».proof.Proof.Gen.KernelIdeal.Launch
import proofs.«401464_j35150012350702_1_alg».proof.Proof.Gen.KernelIdeal.Points
import proofs.«401464_j35150012350702_1_alg».proof.Proof.Gen.KernelIdeal.Frame
import proofs.«401464_j35150012350702_1_alg».proof.Proof.Gen.ReferenceIdeal
import proofs.«401464_j35150012350702_1_alg».proof.Proof.Gen.Pre_finite_inputs
import proofs.«401464_j35150012350702_1_alg».proof.Proof.Gen.KernelIdeal.Value
import proofs.«401464_j35150012350702_1_alg».proof.Proof.Gen.ReferenceIdeal.Run
import proofs.«401464_j35150012350702_1_alg».proof.Proof.Gen.ReferenceIdeal.Read
import proofs.«401464_j35150012350702_1_alg».proof.Proof.Final
import proofs.«401464_j35150012350702_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k [Cert.Kernel.Facts] [Cert.Pre_finite_inputs.Facts] : Cert.frame_Kernel :=
  fun m ρ _ => Cert.Kernel.Gen.frame m ρ

/-- So does the kernel read over the extended reals. -/
theorem frame_ki [Cert.KernelIdeal.Facts] [Cert.Pre_finite_inputs.Facts] : Cert.frame_KernelIdeal :=
  fun m ρ _ => Cert.KernelIdeal.Gen.frame m ρ

/-- The reference runs and leaves its arguments alone: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the four arguments both programs end with the specification's result of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _ _ _ _).trans ?_
  refine (Cert.ReferenceIdeal.RefValue.result_eq _ _ _ _).trans ?_
  show Cert.Dequant.result _ _ _ _ = Cert.Dequant.result _ _ _ _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
